-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8000000 : Shape := ⟨1, ![8000000]⟩
abbrev S4000000 : Shape := ⟨1, ![4000000]⟩
abbrev S4000000x4 : Shape := ⟨2, ![4000000, 4]⟩
abbrev S_ : Shape := ⟨0, ![]⟩

class Facts : Prop where
  bcast_S_S8000000 : S_.BroadcastsInDim S8000000 (![] : Fin 0 → Fin S8000000.rank)
  reducesTo_S8000000_S_d0 : S8000000.ReducesTo [0] S_
  h_S_ : 0 < S_.numel
  bcast_S_S4000000 : S_.BroadcastsInDim S4000000 (![] : Fin 0 → Fin S4000000.rank)
  reducesTo_S4000000_S_d0 : S4000000.ReducesTo [0] S_
  reducesTo_S_S_d : S_.ReducesTo [] S_

variable [Facts]

def fn_part1 {F : FTy → Type} [FloatOps F] (main_arg7 : FVec F S_ .f32) (main_v13 : IVec S_ 1) (main_v16 : IVec S4000000 1) : IVec S_ 1 :=
  let main_c_5 : IVec S_ 1 := constantI S_ 1 1#1
  let main_v17 : IVec S_ 1 := (fun x v => Host.reduce IntOp.andi x v reducesTo_S4000000_S_d0 h_S_) main_v16 main_c_5
  let main_v18 : IVec S_ 1 := andi main_v13 main_v17
  let main_v19 : FVec F S_ .f32 := Host.absf main_arg7
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  main_v22

def fn {F : FTy → Type} [FloatOps F] (main_arg0 : FVec F S8000000 .f32) (main_arg1 : FVec F S4000000 .f32) (main_arg2 : FVec F S8000000 .f32) (main_arg3 : FVec F S4000000 .f32) (main_arg4 : IVec S8000000 32) (main_arg5 : IVec S8000000 32) (main_arg6 : IVec S4000000x4 32) (main_arg7 : FVec F S_ .f32) : IVec S_ 1 :=
  let main_v0 : FVec F S8000000 .f32 := Host.absf main_arg0
  let main_cst : FVec F S_ .f32 := constant S_ .f32 0x7F800000#32
  let main_v1 : FVec F S8000000 .f32 := broadcastInDim S8000000 ![] bcast_S_S8000000 main_cst
  let main_v2 : IVec S8000000 1 := cmpf .olt main_v0 main_v1
  let main_c : IVec S_ 1 := constantI S_ 1 1#1
  let main_v3 : IVec S_ 1 := (fun x v => Host.reduce IntOp.andi x v reducesTo_S8000000_S_d0 h_S_) main_v2 main_c
  let main_v4 : FVec F S4000000 .f32 := Host.absf main_arg1
  let main_cst_0 : FVec F S_ .f32 := constant S_ .f32 0x7F800000#32
  let main_v5 : FVec F S4000000 .f32 := broadcastInDim S4000000 ![] bcast_S_S4000000 main_cst_0
  let main_v6 : IVec S4000000 1 := cmpf .olt main_v4 main_v5
  let main_c_1 : IVec S_ 1 := constantI S_ 1 1#1
  let main_v7 : IVec S_ 1 := (fun x v => Host.reduce IntOp.andi x v reducesTo_S4000000_S_d0 h_S_) main_v6 main_c_1
  let main_v8 : IVec S_ 1 := andi main_v3 main_v7
  let main_v9 : FVec F S8000000 .f32 := Host.absf main_arg2
  let main_cst_2 : FVec F S_ .f32 := constant S_ .f32 0x7F800000#32
  let main_v10 : FVec F S8000000 .f32 := broadcastInDim S8000000 ![] bcast_S_S8000000 main_cst_2
  let main_v11 : IVec S8000000 1 := cmpf .olt main_v9 main_v10
  let main_c_3 : IVec S_ 1 := constantI S_ 1 1#1
  let main_v12 : IVec S_ 1 := (fun x v => Host.reduce IntOp.andi x v reducesTo_S8000000_S_d0 h_S_) main_v11 main_c_3
  let main_v13 : IVec S_ 1 := andi main_v8 main_v12
  let main_v14 : FVec F S4000000 .f32 := Host.absf main_arg3
  let main_cst_4 : FVec F S_ .f32 := constant S_ .f32 0x7F800000#32
  let main_v15 : FVec F S4000000 .f32 := broadcastInDim S4000000 ![] bcast_S_S4000000 main_cst_4
  let main_v16 : IVec S4000000 1 := cmpf .olt main_v14 main_v15
  fn_part1 (F := F) main_arg7 main_v13 main_v16
-- ==== Kernel.lean ====
abbrev S8000000 : Shape := ⟨1, ![8000000]⟩
abbrev S4000000 : Shape := ⟨1, ![4000000]⟩
abbrev S4000000x4 : Shape := ⟨2, ![4000000, 4]⟩
abbrev S_ : Shape := ⟨0, ![]⟩
abbrev S8000000x1 : Shape := ⟨2, ![8000000, 1]⟩
abbrev S62500x128 : Shape := ⟨2, ![62500, 128]⟩
abbrev S8192x128 : Shape := ⟨2, ![8192, 128]⟩
abbrev S4000000x4x1 : Shape := ⟨3, ![4000000, 4, 1]⟩

abbrev nBuf : Space → Nat
  | .hbm => 58
  | .vmem => 10
  | .smem => 0
  | _ => 0

abbrev bufTy : (tb : Table) → Fin (tcTables nBuf tb) → BufTy
  | .hbm, ⟨0, _⟩ => ⟨S8000000, .f32⟩
  | .hbm, ⟨1, _⟩ => ⟨S4000000, .f32⟩
  | .hbm, ⟨2, _⟩ => ⟨S8000000, .f32⟩
  | .hbm, ⟨3, _⟩ => ⟨S4000000, .f32⟩
  | .hbm, ⟨4, _⟩ => ⟨S8000000, .i32⟩
  | .hbm, ⟨5, _⟩ => ⟨S8000000, .i32⟩
  | .hbm, ⟨6, _⟩ => ⟨S4000000x4, .i32⟩
  | .hbm, ⟨7, _⟩ => ⟨S_, .f32⟩
  | .hbm, ⟨8, _⟩ => ⟨S_, .i32⟩
  | .hbm, ⟨9, _⟩ => ⟨S8000000, .i32⟩
  | .hbm, ⟨10, _⟩ => ⟨S8000000, .i1⟩
  | .hbm, ⟨11, _⟩ => ⟨S_, .i32⟩
  | .hbm, ⟨12, _⟩ => ⟨S8000000, .i32⟩
  | .hbm, ⟨13, _⟩ => ⟨S8000000, .i32⟩
  | .hbm, ⟨14, _⟩ => ⟨S8000000, .i32⟩
  | .hbm, ⟨15, _⟩ => ⟨S8000000x1, .i32⟩
  | .hbm, ⟨16, _⟩ => ⟨S8000000, .f32⟩
  | .hbm, ⟨17, _⟩ => ⟨S_, .i32⟩
  | .hbm, ⟨18, _⟩ => ⟨S8000000, .i32⟩
  | .hbm, ⟨19, _⟩ => ⟨S8000000, .i1⟩
  | .hbm, ⟨20, _⟩ => ⟨S_, .i32⟩
  | .hbm, ⟨21, _⟩ => ⟨S8000000, .i32⟩
  | .hbm, ⟨22, _⟩ => ⟨S8000000, .i32⟩
  | .hbm, ⟨23, _⟩ => ⟨S8000000, .i32⟩
  | .hbm, ⟨24, _⟩ => ⟨S8000000x1, .i32⟩
  | .hbm, ⟨25, _⟩ => ⟨S8000000, .f32⟩
  | .hbm, ⟨26, _⟩ => ⟨S62500x128, .f32⟩
  | .hbm, ⟨27, _⟩ => ⟨S62500x128, .f32⟩
  | .hbm, ⟨28, _⟩ => ⟨S62500x128, .f32⟩
  | .hbm, ⟨29, _⟩ => ⟨S62500x128, .f32⟩
  | .hbm, ⟨30, _⟩ => ⟨S62500x128, .f32⟩
  | .hbm, ⟨31, _⟩ => ⟨S8000000, .f32⟩
  | .hbm, ⟨32, _⟩ => ⟨S_, .i32⟩
  | .hbm, ⟨33, _⟩ => ⟨S4000000x4, .i32⟩
  | .hbm, ⟨34, _⟩ => ⟨S4000000x4, .i1⟩
  | .hbm, ⟨35, _⟩ => ⟨S_, .i32⟩
  | .hbm, ⟨36, _⟩ => ⟨S4000000x4, .i32⟩
  | .hbm, ⟨37, _⟩ => ⟨S4000000x4, .i32⟩
  | .hbm, ⟨38, _⟩ => ⟨S4000000x4, .i32⟩
  | .hbm, ⟨39, _⟩ => ⟨S4000000x4x1, .i32⟩
  | .hbm, ⟨40, _⟩ => ⟨S4000000x4, .f32⟩
  | .hbm, ⟨41, _⟩ => ⟨S_, .f32⟩
  | .hbm, ⟨42, _⟩ => ⟨S4000000, .f32⟩
  | .hbm, ⟨43, _⟩ => ⟨S_, .f32⟩
  | .hbm, ⟨44, _⟩ => ⟨S4000000, .f32⟩
  | .hbm, ⟨45, _⟩ => ⟨S4000000, .i1⟩
  | .hbm, ⟨46, _⟩ => ⟨S_, .f32⟩
  | .hbm, ⟨47, _⟩ => ⟨S_, .f32⟩
  | .hbm, ⟨48, _⟩ => ⟨S4000000, .f32⟩
  | .hbm, ⟨49, _⟩ => ⟨S4000000, .f32⟩
  | .hbm, ⟨50, _⟩ => ⟨S4000000, .f32⟩
  | .hbm, ⟨51, _⟩ => ⟨S_, .f32⟩
  | .hbm, ⟨52, _⟩ => ⟨S_, .f32⟩
  | .hbm, ⟨53, _⟩ => ⟨S4000000, .f32⟩
  | .hbm, ⟨54, _⟩ => ⟨S4000000, .f32⟩
  | .hbm, ⟨55, _⟩ => ⟨S4000000, .f32⟩
  | .hbm, ⟨56, _⟩ => ⟨S4000000, .f32⟩
  | .hbm, ⟨57, _⟩ => ⟨S4000000, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S8192x128, .f32⟩
  | .local _ .vmem, ⟨7, _⟩ => ⟨S8192x128, .f32⟩
  | .local _ .vmem, ⟨8, _⟩ => ⟨S8192x128, .f32⟩
  | .local _ .vmem, ⟨9, _⟩ => ⟨S8192x128, .f32⟩
  | _, _ => ⟨S8000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_call0_v0 : Ref sig .tc := ⟨.hbm, 47, rfl⟩
abbrev main_call0_v1 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_call1_v0 : Ref sig .tc := ⟨.hbm, 52, rfl⟩
abbrev main_call1_v1 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S8000000 : S_.BroadcastsInDim S8000000 (![] : Fin 0 → Fin S8000000.rank)
  bcast_S8000000_S8000000x1_0 : S8000000.BroadcastsInDim S8000000x1 (![0] : Fin 1 → Fin S8000000x1.rank)
  shapeCasts_S8000000_S62500x128 : S8000000.ShapeCasts S62500x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S62500x128_S8000000 : S62500x128.ShapeCasts S8000000
  bcast_S_S4000000x4 : S_.BroadcastsInDim S4000000x4 (![] : Fin 0 → Fin S4000000x4.rank)
  bcast_S4000000x4_S4000000x4x1_0_1 : S4000000x4.BroadcastsInDim S4000000x4x1 (![0, 1] : Fin 2 → Fin S4000000x4x1.rank)
  reducesTo_S4000000x4_S4000000_d1 : S4000000x4.ReducesTo [1] S4000000
  h_S_ : 0 < S_.numel
  bcast_S_S4000000 : S_.BroadcastsInDim S4000000 (![] : Fin 0 → Fin S4000000.rank)
  gather_S4000000_S8000000x1_S8000000_n_0_n_n_0_1_1_wf : GatherDims.WF S4000000 S8000000x1 S8000000 [] [0] [] [0] [] 1 ![1]
  gather_S8000000_S4000000x4x1_S4000000x4_n_0_n_n_0_2_1_wf : GatherDims.WF S8000000 S4000000x4x1 S4000000x4 [] [0] [] [0] [] 2 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S8192x128.size a < S62500x128.size a
  hwx0_0 : ∀ i : grid0.Coords, EltTy.bits .f32 = 32 ∨ (Rect.unit (s := S62500x128) (fun a => cc0_transform_0 i a * S8192x128.size a) (fun a => (Pipeline.Clip.of (cc0_transform_0 i a) (S8192x128.size a) (S62500x128.size a)).extent (S8192x128.size a)) fun a => Pipeline.Clip.inb (Pipeline.Clip.ok_of (hstart0_0 i a))).WholeWords (EltTy.packing .f32)
  hwxs0_0 : ∀ i : grid0.Coords, EltTy.bits .f32 = 32 ∨ (Rect.unit (s := S8192x128) (fun _ => 0) (fun a => (Pipeline.Clip.of (cc0_transform_0 i a) (S8192x128.size a) (S62500x128.size a)).extent (S8192x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S8192x128.size a < S62500x128.size a
  hwx0_1 : ∀ i : grid0.Coords, EltTy.bits .f32 = 32 ∨ (Rect.unit (s := S62500x128) (fun a => cc0_transform_1 i a * S8192x128.size a) (fun a => (Pipeline.Clip.of (cc0_transform_1 i a) (S8192x128.size a) (S62500x128.size a)).extent (S8192x128.size a)) fun a => Pipeline.Clip.inb (Pipeline.Clip.ok_of (hstart0_1 i a))).WholeWords (EltTy.packing .f32)
  hwxs0_1 : ∀ i : grid0.Coords, EltTy.bits .f32 = 32 ∨ (Rect.unit (s := S8192x128) (fun _ => 0) (fun a => (Pipeline.Clip.of (cc0_transform_1 i a) (S8192x128.size a) (S62500x128.size a)).extent (S8192x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S8192x128.size a < S62500x128.size a
  hwx0_2 : ∀ i : grid0.Coords, EltTy.bits .f32 = 32 ∨ (Rect.unit (s := S62500x128) (fun a => cc0_transform_2 i a * S8192x128.size a) (fun a => (Pipeline.Clip.of (cc0_transform_2 i a) (S8192x128.size a) (S62500x128.size a)).extent (S8192x128.size a)) fun a => Pipeline.Clip.inb (Pipeline.Clip.ok_of (hstart0_2 i a))).WholeWords (EltTy.packing .f32)
  hwxs0_2 : ∀ i : grid0.Coords, EltTy.bits .f32 = 32 ∨ (Rect.unit (s := S8192x128) (fun _ => 0) (fun a => (Pipeline.Clip.of (cc0_transform_2 i a) (S8192x128.size a) (S62500x128.size a)).extent (S8192x128.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S8192x128.size a < S62500x128.size a
  hwx0_3 : ∀ i : grid0.Coords, EltTy.bits .f32 = 32 ∨ (Rect.unit (s := S62500x128) (fun a => cc0_transform_3 i a * S8192x128.size a) (fun a => (Pipeline.Clip.of (cc0_transform_3 i a) (S8192x128.size a) (S62500x128.size a)).extent (S8192x128.size a)) fun a => Pipeline.Clip.inb (Pipeline.Clip.ok_of (hstart0_3 i a))).WholeWords (EltTy.packing .f32)
  hwxs0_3 : ∀ i : grid0.Coords, EltTy.bits .f32 = 32 ∨ (Rect.unit (s := S8192x128) (fun _ => 0) (fun a => (Pipeline.Clip.of (cc0_transform_3 i a) (S8192x128.size a) (S62500x128.size a)).extent (S8192x128.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S8192x128.size a < S62500x128.size a
  hwx0_4 : ∀ i : grid0.Coords, EltTy.bits .f32 = 32 ∨ (Rect.unit (s := S62500x128) (fun a => cc0_transform_4 i a * S8192x128.size a) (fun a => (Pipeline.Clip.of (cc0_transform_4 i a) (S8192x128.size a) (S62500x128.size a)).extent (S8192x128.size a)) fun a => Pipeline.Clip.inb (Pipeline.Clip.ok_of (hstart0_4 i a))).WholeWords (EltTy.packing .f32)
  hwxs0_4 : ∀ i : grid0.Coords, EltTy.bits .f32 = 32 ∨ (Rect.unit (s := S8192x128) (fun _ => 0) (fun a => (Pipeline.Clip.of (cc0_transform_4 i a) (S8192x128.size a) (S62500x128.size a)).extent (S8192x128.size a)) fun a => (Nat.zero_add _).trans_le (Pipeline.Clip.extent_le (Pipeline.Clip.ok_of (hstart0_4 i a)))).WholeWords (EltTy.packing .f32)

variable [Facts₀]

def gather_S4000000_S8000000x1_S8000000_n_0_n_n_0_1_1 : GatherDims S4000000 S8000000x1 S8000000 where
  offsetDims := []
  collapsedSliceDims := [0]
  operandBatchingDims := []
  startIndicesBatchingDims := []
  startIndexMap := [0]
  indexVectorDim := 1
  sliceSizes := ![1]
  wf := gather_S4000000_S8000000x1_S8000000_n_0_n_n_0_1_1_wf
def gather_S8000000_S4000000x4x1_S4000000x4_n_0_n_n_0_2_1 : GatherDims S8000000 S4000000x4x1 S4000000x4 where
  offsetDims := []
  collapsedSliceDims := [0]
  operandBatchingDims := []
  startIndicesBatchingDims := []
  startIndexMap := [0]
  indexVectorDim := 2
  sliceSizes := ![1]
  wf := gather_S8000000_S4000000x4x1_S4000000x4_n_0_n_n_0_2_1_wf

abbrev win0_0 : Pipeline.Window sig grid0 :=
  Pipeline.Window.ofSpecClip (Memref.whole main_v14) S8192x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v15) S8192x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v16) S8192x128.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v17) S8192x128.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v18) S8192x128.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8000000 : Shape := ⟨1, ![8000000]⟩
abbrev S4000000 : Shape := ⟨1, ![4000000]⟩
abbrev S4000000x4 : Shape := ⟨2, ![4000000, 4]⟩
abbrev S_ : Shape := ⟨0, ![]⟩
abbrev S8000000x1 : Shape := ⟨2, ![8000000, 1]⟩
abbrev S4000000x4x1 : Shape := ⟨3, ![4000000, 4, 1]⟩

abbrev nBuf : Space → Nat
  | .hbm => 87
  | .vmem => 0
  | .smem => 0
  | _ => 0

abbrev bufTy : (tb : Table) → Fin (tcTables nBuf tb) → BufTy
  | .hbm, ⟨0, _⟩ => ⟨S8000000, .f32⟩
  | .hbm, ⟨1, _⟩ => ⟨S4000000, .f32⟩
  | .hbm, ⟨2, _⟩ => ⟨S8000000, .f32⟩
  | .hbm, ⟨3, _⟩ => ⟨S4000000, .f32⟩
  | .hbm, ⟨4, _⟩ => ⟨S8000000, .i32⟩
  | .hbm, ⟨5, _⟩ => ⟨S8000000, .i32⟩
  | .hbm, ⟨6, _⟩ => ⟨S4000000x4, .i32⟩
  | .hbm, ⟨7, _⟩ => ⟨S_, .f32⟩
  | .hbm, ⟨8, _⟩ => ⟨S_, .f32⟩
  | .hbm, ⟨9, _⟩ => ⟨S8000000, .f32⟩
  | .hbm, ⟨10, _⟩ => ⟨S8000000, .i1⟩
  | .hbm, ⟨11, _⟩ => ⟨S_, .i32⟩
  | .hbm, ⟨12, _⟩ => ⟨S8000000, .i32⟩
  | .hbm, ⟨13, _⟩ => ⟨S8000000, .i1⟩
  | .hbm, ⟨14, _⟩ => ⟨S_, .i32⟩
  | .hbm, ⟨15, _⟩ => ⟨S8000000, .i32⟩
  | .hbm, ⟨16, _⟩ => ⟨S8000000, .i32⟩
  | .hbm, ⟨17, _⟩ => ⟨S8000000, .i32⟩
  | .hbm, ⟨18, _⟩ => ⟨S8000000x1, .i32⟩
  | .hbm, ⟨19, _⟩ => ⟨S8000000, .f32⟩
  | .hbm, ⟨20, _⟩ => ⟨S_, .i32⟩
  | .hbm, ⟨21, _⟩ => ⟨S8000000, .i32⟩
  | .hbm, ⟨22, _⟩ => ⟨S8000000, .i1⟩
  | .hbm, ⟨23, _⟩ => ⟨S_, .i32⟩
  | .hbm, ⟨24, _⟩ => ⟨S8000000, .i32⟩
  | .hbm, ⟨25, _⟩ => ⟨S8000000, .i32⟩
  | .hbm, ⟨26, _⟩ => ⟨S8000000, .i32⟩
  | .hbm, ⟨27, _⟩ => ⟨S8000000x1, .i32⟩
  | .hbm, ⟨28, _⟩ => ⟨S8000000, .f32⟩
  | .hbm, ⟨29, _⟩ => ⟨S8000000, .f32⟩
  | .hbm, ⟨30, _⟩ => ⟨S8000000, .f32⟩
  | .hbm, ⟨31, _⟩ => ⟨S8000000, .f32⟩
  | .hbm, ⟨32, _⟩ => ⟨S_, .f32⟩
  | .hbm, ⟨33, _⟩ => ⟨S8000000, .f32⟩
  | .hbm, ⟨34, _⟩ => ⟨S8000000, .i1⟩
  | .hbm, ⟨35, _⟩ => ⟨S_, .f32⟩
  | .hbm, ⟨36, _⟩ => ⟨S_, .f32⟩
  | .hbm, ⟨37, _⟩ => ⟨S8000000, .f32⟩
  | .hbm, ⟨38, _⟩ => ⟨S8000000, .f32⟩
  | .hbm, ⟨39, _⟩ => ⟨S8000000, .f32⟩
  | .hbm, ⟨40, _⟩ => ⟨S8000000, .f32⟩
  | .hbm, ⟨41, _⟩ => ⟨S_, .f32⟩
  | .hbm, ⟨42, _⟩ => ⟨S_, .f32⟩
  | .hbm, ⟨43, _⟩ => ⟨S8000000, .f32⟩
  | .hbm, ⟨44, _⟩ => ⟨S8000000, .f32⟩
  | .hbm, ⟨45, _⟩ => ⟨S8000000, .f32⟩
  | .hbm, ⟨46, _⟩ => ⟨S8000000, .f32⟩
  | .hbm, ⟨47, _⟩ => ⟨S8000000, .f32⟩
  | .hbm, ⟨48, _⟩ => ⟨S_, .f32⟩
  | .hbm, ⟨49, _⟩ => ⟨S8000000, .f32⟩
  | .hbm, ⟨50, _⟩ => ⟨S8000000, .f32⟩
  | .hbm, ⟨51, _⟩ => ⟨S8000000, .f32⟩
  | .hbm, ⟨52, _⟩ => ⟨S_, .f32⟩
  | .hbm, ⟨53, _⟩ => ⟨S8000000, .f32⟩
  | .hbm, ⟨54, _⟩ => ⟨S8000000, .f32⟩
  | .hbm, ⟨55, _⟩ => ⟨S8000000, .f32⟩
  | .hbm, ⟨56, _⟩ => ⟨S8000000, .f32⟩
  | .hbm, ⟨57, _⟩ => ⟨S8000000, .f32⟩
  | .hbm, ⟨58, _⟩ => ⟨S_, .i32⟩
  | .hbm, ⟨59, _⟩ => ⟨S4000000x4, .i32⟩
  | .hbm, ⟨60, _⟩ => ⟨S4000000x4, .i1⟩
  | .hbm, ⟨61, _⟩ => ⟨S_, .i32⟩
  | .hbm, ⟨62, _⟩ => ⟨S4000000x4, .i32⟩
  | .hbm, ⟨63, _⟩ => ⟨S4000000x4, .i32⟩
  | .hbm, ⟨64, _⟩ => ⟨S4000000x4, .i32⟩
  | .hbm, ⟨65, _⟩ => ⟨S4000000x4x1, .i32⟩
  | .hbm, ⟨66, _⟩ => ⟨S4000000x4, .f32⟩
  | .hbm, ⟨67, _⟩ => ⟨S_, .f32⟩
  | .hbm, ⟨68, _⟩ => ⟨S4000000, .f32⟩
  | .hbm, ⟨69, _⟩ => ⟨S_, .f32⟩
  | .hbm, ⟨70, _⟩ => ⟨S4000000, .f32⟩
  | .hbm, ⟨71, _⟩ => ⟨S4000000, .i1⟩
  | .hbm, ⟨72, _⟩ => ⟨S_, .f32⟩
  | .hbm, ⟨73, _⟩ => ⟨S4000000, .f32⟩
  | .hbm, ⟨74, _⟩ => ⟨S4000000, .i1⟩
  | .hbm, ⟨75, _⟩ => ⟨S_, .f32⟩
  | .hbm, ⟨76, _⟩ => ⟨S_, .f32⟩
  | .hbm, ⟨77, _⟩ => ⟨S4000000, .f32⟩
  | .hbm, ⟨78, _⟩ => ⟨S4000000, .f32⟩
  | .hbm, ⟨79, _⟩ => ⟨S4000000, .f32⟩
  | .hbm, ⟨80, _⟩ => ⟨S_, .f32⟩
  | .hbm, ⟨81, _⟩ => ⟨S_, .f32⟩
  | .hbm, ⟨82, _⟩ => ⟨S4000000, .f32⟩
  | .hbm, ⟨83, _⟩ => ⟨S4000000, .f32⟩
  | .hbm, ⟨84, _⟩ => ⟨S4000000, .f32⟩
  | .hbm, ⟨85, _⟩ => ⟨S4000000, .f32⟩
  | .hbm, ⟨86, _⟩ => ⟨S4000000, .f32⟩
  | _, _ => ⟨S8000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_call2_v0 : Ref sig .tc := ⟨.hbm, 36, rfl⟩
abbrev main_call2_v1 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_call3_v0 : Ref sig .tc := ⟨.hbm, 42, rfl⟩
abbrev main_call3_v1 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_c_9 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_10 : Ref sig .tc := ⟨.hbm, 67, rfl⟩
abbrev main_v43 : Ref sig .tc := ⟨.hbm, 68, rfl⟩
abbrev main_cst_11 : Ref sig .tc := ⟨.hbm, 69, rfl⟩
abbrev main_v44 : Ref sig .tc := ⟨.hbm, 70, rfl⟩
abbrev main_v45 : Ref sig .tc := ⟨.hbm, 71, rfl⟩
abbrev main_cst_12 : Ref sig .tc := ⟨.hbm, 72, rfl⟩
abbrev main_v46 : Ref sig .tc := ⟨.hbm, 73, rfl⟩
abbrev main_v47 : Ref sig .tc := ⟨.hbm, 74, rfl⟩
abbrev main_cst_13 : Ref sig .tc := ⟨.hbm, 75, rfl⟩
abbrev main_call4_v0 : Ref sig .tc := ⟨.hbm, 76, rfl⟩
abbrev main_call4_v1 : Ref sig .tc := ⟨.hbm, 77, rfl⟩
abbrev main_v48 : Ref sig .tc := ⟨.hbm, 78, rfl⟩
abbrev main_v49 : Ref sig .tc := ⟨.hbm, 79, rfl⟩
abbrev main_cst_14 : Ref sig .tc := ⟨.hbm, 80, rfl⟩
abbrev main_call5_v0 : Ref sig .tc := ⟨.hbm, 81, rfl⟩
abbrev main_call5_v1 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩

abbrev nD : Nat := 1
abbrev τ : Topo := Topo.v7x

variable {F : FTy → Type} [FloatOps F]

class Facts₀ : Prop where
  bcast_S_S8000000 : S_.BroadcastsInDim S8000000 (![] : Fin 0 → Fin S8000000.rank)
  bcast_S8000000_S8000000x1_0 : S8000000.BroadcastsInDim S8000000x1 (![0] : Fin 1 → Fin S8000000x1.rank)
  bcast_S_S4000000x4 : S_.BroadcastsInDim S4000000x4 (![] : Fin 0 → Fin S4000000x4.rank)
  bcast_S4000000x4_S4000000x4x1_0_1 : S4000000x4.BroadcastsInDim S4000000x4x1 (![0, 1] : Fin 2 → Fin S4000000x4x1.rank)
  reducesTo_S4000000x4_S4000000_d1 : S4000000x4.ReducesTo [1] S4000000
  h_S_ : 0 < S_.numel
  bcast_S_S4000000 : S_.BroadcastsInDim S4000000 (![] : Fin 0 → Fin S4000000.rank)
  gather_S4000000_S8000000x1_S8000000_n_0_n_n_0_1_1_wf : GatherDims.WF S4000000 S8000000x1 S8000000 [] [0] [] [0] [] 1 ![1]
  gather_S8000000_S4000000x4x1_S4000000x4_n_0_n_n_0_2_1_wf : GatherDims.WF S8000000 S4000000x4x1 S4000000x4 [] [0] [] [0] [] 2 ![1]

variable [Facts₀]

def gather_S4000000_S8000000x1_S8000000_n_0_n_n_0_1_1 : GatherDims S4000000 S8000000x1 S8000000 where
  offsetDims := []
  collapsedSliceDims := [0]
  operandBatchingDims := []
  startIndicesBatchingDims := []
  startIndexMap := [0]
  indexVectorDim := 1
  sliceSizes := ![1]
  wf := gather_S4000000_S8000000x1_S8000000_n_0_n_n_0_1_1_wf
def gather_S8000000_S4000000x4x1_S4000000x4_n_0_n_n_0_2_1 : GatherDims S8000000 S4000000x4x1 S4000000x4 where
  offsetDims := []
  collapsedSliceDims := [0]
  operandBatchingDims := []
  startIndicesBatchingDims := []
  startIndexMap := [0]
  indexVectorDim := 2
  sliceSizes := ![1]
  wf := gather_S8000000_S4000000x4x1_S4000000x4_n_0_n_n_0_2_1_wf

class Facts : Prop extends Facts₀ where

variable [Facts]
-- ==== Proof.LibWindowFill.lean ====
/-
  Three facts about a pipeline window whose edge blocks are cut at the array's end.

  A transfer at grid coordinates `i` moves only the block's leading part (`Window.moved`): a fetch into a staging block
  holding `d` leaves `Window.fill i d g`, the fetched part `g` on the moved lanes and `d` elsewhere, and a write-back moves
  `Window.cut i X`, the moved lanes of the block's contents `X`. A body obligation over such a window states the block on
  the moved lanes only, so what it needs is that lanes the transfer does not move never matter:
  * `fill_at` — a moved lane of a filled block holds the fetched part's lane;
  * `fill_indep` — on a moved lane the filler does not matter;
  * `cut_congr` — contents that agree on every moved lane are written back alike (the hypothesis
    `Window.fill_congr_cut` takes).
-/
import Idealize.ShloMosaic.Lib.Pipeline

namespace Cert.LibWindowFill

open Idealize.ShloMosaic Idealize.ShloMosaic.Pipeline

variable {sig : RefSig} {G : Pipeline.Grid}

/-- A lane the transfer at `i` moves holds, after a fetch of `g` into a block holding `d`, the fetched part's lane. -/
theorem fill_at (w : Window sig G) {α : Type} (i : G.Coords) (d : w.block.Idx → α) (g : (w.xblock i).Idx → α)
    {y : w.block.Idx} (h : w.moved i y = true) :
    w.fill i d g y = g fun a => ⟨(y a).val, (w.moved_iff i y).mp h a⟩ := by
  unfold Window.fill; rw [dif_pos h]

/-- On a lane the transfer moves, what the staging block held before the fetch does not matter. -/
theorem fill_indep (w : Window sig G) {α : Type} (i : G.Coords) (d d' : w.block.Idx → α) (g : (w.xblock i).Idx → α)
    {y : w.block.Idx} (h : w.moved i y = true) : w.fill i d g y = w.fill i d' g y := by
  rw [fill_at w i d g h, fill_at w i d' g h]

/-- Contents that agree on every lane the transfer moves are written back alike. -/
theorem cut_congr (w : Window sig G) {α : Type} (i : G.Coords) {X Y : w.block.Idx → α}
    (h : ∀ y : w.block.Idx, w.moved i y = true → X y = Y y) : w.cut i X = w.cut i Y :=
  funext fun j => h (w.xinj i j) (w.moved_xinj i j)

end Cert.LibWindowFill
-- ==== Proof.FluxBody.lean ====
/-
  One grid point of the flux-limiter kernel, and its run.

  The link arrays (velocity, the tracer gathered at each link's head and at its tail, the upwind value) are laid out as
  62500 rows of 128 lanes and handled in eight blocks of 8192 rows; 8 · 8192 = 65536 > 62500, so the last block overhangs
  the arrays by 3036 rows. A fetch of that block lands only the 5156 rows inside the array, and the staging rows past them
  hold words nothing names; the write-back of the result's last block likewise moves only its rows inside the array. The
  body is lane-wise — select the donor cell by the sign of the velocity, the van Leer limiter of the slope ratio, the face
  value, times the velocity —, so each lane of the result depends on the same lane of the four inputs only: on the rows a
  write-back moves the result is a function of rows the fetches landed, whatever the overhanging rows held. That is all
  the body obligation has to state, and it gives the program's frame: it runs to the end, faults nowhere, and leaves its
  arguments as it found them. The result array's contents are read off the same run elsewhere.
-/
import proofs.«427419_j10660108829455_3_alg».proof.Proof.Gen.Kernel.Frame
import proofs.«427419_j10660108829455_3_alg».proof.Proof.Gen.Kernel.Skeleton
import proofs.«427419_j10660108829455_3_alg».proof.Proof.LibWindowFill
import Idealize.ShloMosaic.Lib.Pipeline.Value

set_option maxRecDepth 16384

noncomputable section

namespace Cert.Kernel.Flux

open Cert.Kernel Cert.Kernel.Gen Cert.LibWindowFill
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One grid point of the flux kernel

The body reads its four staging blocks whole (velocity, tracer at the link's head, tracer at the link's tail, the upwind
value), computes the limited flux lane by lane, and stores it whole into the result's staging block. -/

/-- The whole block as the body's one access rectangle. -/
abbrev wholeBlk : Rect S8192x128 := Rect.unit (s := S8192x128) ![0, 0] S8192x128.size inb_S8192x128_S8192x128_0_0

theorem offs_zero : (![0, 0] : Fin 2 → Nat) = fun _ => 0 := funext fun a => by fin_cases a <;> rfl

/-- What the result's staging block holds after the body, as the one whole store over what the four loads read. -/
def stored (x0 x1 x2 x3 : Vec F S8192x128 .f32) : Vec F S8192x128 .f32 :=
  View.canon [⟨wholeBlk, k0_pay1 (View.ld x0 wholeBlk) (View.ld x1 wholeBlk) (View.ld x2 wholeBlk) (View.ld x3 wholeBlk)⟩]

/-- The store is of the whole block and the loads are of whole blocks: the result's block is the lane-wise flux
    of the four input blocks. -/
theorem stored_eq (x0 x1 x2 x3 : Vec F S8192x128 .f32) : stored x0 x1 x2 x3 = k0_pay1 x0 x1 x2 x3 := by
  unfold stored
  rw [View.canon_unit_zero (S := S8192x128) offs_zero]
  simp only [View.ld_unit_zero (S := S8192x128) offs_zero]

set_option maxHeartbeats 1000000 in
/-- The body on whole staging memrefs: the four inputs' blocks are read and left as they were, the result's block,
    whatever it held, ends at the lane-wise flux of the four. -/
theorem sound_kernel (c : Dev nD) (E : Set ℕ) (i : grid0.Coords)
    (arg1 : Memref sig .tc .vmem S8192x128 .f32) (harg1 : arg1.IsWhole) (arg2 : Memref sig .tc .vmem S8192x128 .f32) (harg2 : arg2.IsWhole)
    (arg3 : Memref sig .tc .vmem S8192x128 .f32) (harg3 : arg3.IsWhole) (arg4 : Memref sig .tc .vmem S8192x128 .f32) (harg4 : arg4.IsWhole)
    (arg5 : Memref sig .tc .vmem S8192x128 .f32) (harg5 : arg5.IsWhole)
    (x0 x1 x2 x3 : Vec F S8192x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (k0_pay1 x0 x1 x2 x3)) -∗ K ⟨⟩))
      ⊢ wp frame (wpE (defs₀ (F := F)) Variants.none c none) E
          (cc0__flux_kernel i arg1 harg1 arg2 harg2 arg3 harg3 arg4 harg4 arg5 harg5) K := by
  rw [← stored_eq x0 x1 x2 x3]
  simp only [cc0__flux_kernel_eq_skeleton]; unfold cc0__flux_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (fun y => ⟨_, List.mem_singleton_self _, View.mem_set_unit_zero (S := S8192x128) offs_zero inb_S8192x128_S8192x128_0_0 y⟩)

/-! ## The proof data

Each of the eight grid points handles a block of 8192 rows of the 62500-row arrays; the last block overhangs the arrays'
end, so its fetches land only the rows inside the array and the staging rows past them hold words nothing names. The
body computes lane by lane, so on the rows inside the array its result depends on the rows inside the array only. -/

/-- Input window `w`'s staging block at point `t` once fetched, the rows past the array's end filled out with the zero
    word (a word the proof picks; nothing reads it). -/
def in0 (c : Dev nD) (t : Fin cfg0.N) : S8192x128.Idx → Elt F .f32 :=
  win0_0.fill (grid0.coords t) (fun _ => Scalar.ofBits .f32 0#32) (iblk m c 0 t)
def in1 (c : Dev nD) (t : Fin cfg0.N) : S8192x128.Idx → Elt F .f32 :=
  win0_1.fill (grid0.coords t) (fun _ => Scalar.ofBits .f32 0#32) (iblk m c 1 t)
def in2 (c : Dev nD) (t : Fin cfg0.N) : S8192x128.Idx → Elt F .f32 :=
  win0_2.fill (grid0.coords t) (fun _ => Scalar.ofBits .f32 0#32) (iblk m c 2 t)
def in3 (c : Dev nD) (t : Fin cfg0.N) : S8192x128.Idx → Elt F .f32 :=
  win0_3.fill (grid0.coords t) (fun _ => Scalar.ofBits .f32 0#32) (iblk m c 3 t)

/-- The proof data of the one pipeline on core `c`: the arrays as the region finds them; after the body each input's
    staging block as fetched and the result's at the lane-wise flux of the four; the class's invariant; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => in0 m c t
    | ⟨1, _⟩ => in1 m c t
    | ⟨2, _⟩ => in2 m c t
    | ⟨3, _⟩ => in3 m c t
    | ⟨4, _⟩ => k0_pay1 (in0 m c t) (in1 m c t) (in2 m c t) (in3 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = in0 m c t := by dsimp only [dats]
theorem after_1 (c : Dev nD) (t : Fin cfg0.N) : (dats m 0 c).after 1 t = in1 m c t := by dsimp only [dats]
theorem after_2 (c : Dev nD) (t : Fin cfg0.N) : (dats m 0 c).after 2 t = in2 m c t := by dsimp only [dats]
theorem after_3 (c : Dev nD) (t : Fin cfg0.N) : (dats m 0 c).after 3 t = in3 m c t := by dsimp only [dats]
theorem after_4 (c : Dev nD) (t : Fin cfg0.N) :
    (dats m 0 c).after 4 t = k0_pay1 (in0 m c t) (in1 m c t) (in2 m c t) (in3 m c t) := by dsimp only [dats]

/-- What the body finds: every input is fetched at every point, so its staging block holds the array's block on the
    rows inside the array and anything (`d`) past them; -/
theorem before_0 (c : Dev nD) (t : Fin cfg0.N) (d) :
    (dats m 0 c).before 0 t d = win0_0.fill (grid0.coords t) d (iblk m c 0 t) := by
  rw [Dat.before_fetched _ _ _ (fetch0_0 t)]; unfold Dat.fetched Dat.blockOf iblk; dsimp only [dats]
theorem before_1 (c : Dev nD) (t : Fin cfg0.N) (d) :
    (dats m 0 c).before 1 t d = win0_1.fill (grid0.coords t) d (iblk m c 1 t) := by
  rw [Dat.before_fetched _ _ _ (fetch0_1 t)]; unfold Dat.fetched Dat.blockOf iblk; dsimp only [dats]
theorem before_2 (c : Dev nD) (t : Fin cfg0.N) (d) :
    (dats m 0 c).before 2 t d = win0_2.fill (grid0.coords t) d (iblk m c 2 t) := by
  rw [Dat.before_fetched _ _ _ (fetch0_2 t)]; unfold Dat.fetched Dat.blockOf iblk; dsimp only [dats]
theorem before_3 (c : Dev nD) (t : Fin cfg0.N) (d) :
    (dats m 0 c).before 3 t d = win0_3.fill (grid0.coords t) d (iblk m c 3 t) := by
  rw [Dat.before_fetched _ _ _ (fetch0_3 t)]; unfold Dat.fetched Dat.blockOf iblk; dsimp only [dats]
/-- the result's staging block, written back at every point, holds anything. -/
theorem before_4 (c : Dev nD) (t : Fin cfg0.N) (d) : (dats m 0 c).before 4 t d = d := by
  refine Dat.before_out_reset _ 4 rfl t ?_ d
  by_cases h0 : t.val = 0
  · exact .inl h0
  · exact .inr ⟨h0, flush0_4 _⟩

/-! ## The body is lane-wise

Every operation of the payload acts lane by lane, so its value at a lane is a function of the four inputs at that
lane alone: inputs that agree at a lane give results that agree there. -/

theorem pay_congr_at {x0 x1 x2 x3 y0 y1 y2 y3 : Vec F S8192x128 .f32} (j : S8192x128.Idx)
    (h0 : x0 j = y0 j) (h1 : x1 j = y1 j) (h2 : x2 j = y2 j) (h3 : x3 j = y3 j) :
    k0_pay1 x0 x1 x2 x3 j = k0_pay1 y0 y1 y2 y3 j := by
  unfold k0_pay1
  simp only [shapeCast_self]
  simp only [mulf, addf, subf, divf, absf, select, cmpf, broadcast]
  rw [h0, h1, h2, h3]

/-- The five windows share one index map and one block shape, so the rows the result's write-back moves are rows every
    input's fetch landed: on them the flux of the blocks as fetched is the flux of the blocks filled out with zeros,
    whatever the staging rows past the array's end held. -/
theorem cut_pay (c : Dev nD) (t : Fin cfg0.N) (d0 d1 d2 d3 : S8192x128.Idx → Elt F .f32) :
    win0_4.cut (grid0.coords t) (k0_pay1 (win0_0.fill (grid0.coords t) d0 (iblk m c 0 t)) (win0_1.fill (grid0.coords t) d1 (iblk m c 1 t))
        (win0_2.fill (grid0.coords t) d2 (iblk m c 2 t)) (win0_3.fill (grid0.coords t) d3 (iblk m c 3 t)))
      = win0_4.cut (grid0.coords t) (k0_pay1 (in0 m c t) (in1 m c t) (in2 m c t) (in3 m c t)) := by
  funext j
  show k0_pay1 _ _ _ _ (win0_4.xinj (grid0.coords t) j) = k0_pay1 _ _ _ _ (win0_4.xinj (grid0.coords t) j)
  refine pay_congr_at _ ?_ ?_ ?_ ?_
  · exact fill_indep win0_0 _ _ _ _ ((win0_0.moved_iff _ _).mpr fun a => (j a).isLt)
  · exact fill_indep win0_1 _ _ _ _ ((win0_1.moved_iff _ _).mpr fun a => (j a).isLt)
  · exact fill_indep win0_2 _ _ _ _ ((win0_2.moved_iff _ _).mpr fun a => (j a).isLt)
  · exact fill_indep win0_3 _ _ _ _ ((win0_3.moved_iff _ _).mpr fun a => (j a).isLt)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns: each staging block stated on the rows its window's transfers move, anything past them. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t))))
    ∗ (∃ d, owns (c : Thread nD τ) (st0_3 t) fullShare (win0_3.fill (grid0.coords t) d (win0_3.cut (grid0.coords t) ((dats m 0 c).after 3 t))))
    ∗ (∃ d, owns (c : Thread nD τ) (st0_4 t) fullShare (win0_4.fill (grid0.coords t) d (win0_4.cut (grid0.coords t) ((dats m 0 c).after 4 t)))))

/-- The body at any point: the inputs' staging blocks hold their fetched blocks, the rows past the array's end at
    anything; the body leaves them so and the result's at their lane-wise flux, which on the rows the write-back moves
    is the proof data's. The invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  rw [before_0 m c t d0, before_1 m c t d1, before_2 m c t d2, before_3 m c t d3, before_4 m c t d4]
  iapply (sound_kernel c Set.univ (grid0.coords t) _ _ _ _ _ _ _ _ _ _
    (win0_0.fill (grid0.coords t) d0 (iblk m c 0 t)) (win0_1.fill (grid0.coords t) d1 (iblk m c 1 t))
    (win0_2.fill (grid0.coords t) d2 (iblk m c 2 t)) (win0_3.fill (grid0.coords t) d3 (iblk m c 3 t)) _)
  isplitl [H0]; · iexact H0
  isplitl [H1]; · iexact H1
  isplitl [H2]; · iexact H2
  isplitl [H3]; · iexact H3
  isplitl [H4]; · iexists d4; iexact H4
  iintro ⟨H0, H1, H2, H3, H4⟩
  isplitl [HΦ]; · iexact HΦ
  isplitl [Ho]; · iexact Ho
  isplitl [H0]
  · iexists d0
    rw [show win0_0.cut (grid0.coords t) (in0 m c t) = iblk m c 0 t from win0_0.cut_fill _ _ _]
    iexact H0
  isplitl [H1]
  · iexists d1
    rw [show win0_1.cut (grid0.coords t) (in1 m c t) = iblk m c 1 t from win0_1.cut_fill _ _ _]
    iexact H1
  isplitl [H2]
  · iexists d2
    rw [show win0_2.cut (grid0.coords t) (in2 m c t) = iblk m c 2 t from win0_2.cut_fill _ _ _]
    iexact H2
  isplitl [H3]
  · iexists d3
    rw [show win0_3.cut (grid0.coords t) (in3 m c t) = iblk m c 3 t from win0_3.cut_fill _ _ _]
    iexact H3
  · iexists k0_pay1 (win0_0.fill (grid0.coords t) d0 (iblk m c 0 t)) (win0_1.fill (grid0.coords t) d1 (iblk m c 1 t))
      (win0_2.fill (grid0.coords t) d2 (iblk m c 2 t)) (win0_3.fill (grid0.coords t) d3 (iblk m c 3 t))
    rw [win0_4.fill_congr_cut _ (cut_pay m c t d0 d1 d2 d3)]
    iexact H4

/-- The library's body obligation, at every point (every window is stated on the part its transfers move). -/
theorem body_obligation (c : Dev nD) : BodyObligationLoose (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- At the compiled mesh, for any values, from any memory with zero counters: every weakly fair execution of @main on
    the TensorCores terminates; every final state has each array of the pipeline at what the library computes from the
    proof data, and every other unscoped buffer as the host lines after the region leave it. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2, hostOps1_3, hostOps1_4])) :=
  Pipeline.θ_run_frame_around cfgs (dats m) (0 : Fin 1) launch0 defs₀ Variants.none m ρ main
    (hbody := body_obligation m) (hshare := fun c => (dats m 0 c).share_full fun _ => rfl)
    (howed := fun _ _ => rfl) (V₀ := V0 m) (opss := [hostOps1, hostOps1_1, hostOps1_2, hostOps1_3, hostOps1_4])
    (hsub := sfx_sub) (hfresh := sfx_fresh) (hkeep := sfx_keeps)
    (hmain := hmain m Variants.none) (hA := A_eq m) (hΦ := fun _ _ => rfl)

/-- The program runs to the end, faults nowhere, and leaves its eight argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Flux

end
-- ==== Proof.FluxBodyIdeal.lean ====
/-
  One grid point of the flux-limiter kernel, and its run.

  The link arrays (velocity, the tracer gathered at each link's head and at its tail, the upwind value) are laid out as
  62500 rows of 128 lanes and handled in eight blocks of 8192 rows; 8 · 8192 = 65536 > 62500, so the last block overhangs
  the arrays by 3036 rows. A fetch of that block lands only the 5156 rows inside the array, and the staging rows past them
  hold words nothing names; the write-back of the result's last block likewise moves only its rows inside the array. The
  body is lane-wise — select the donor cell by the sign of the velocity, the van Leer limiter of the slope ratio, the face
  value, times the velocity —, so each lane of the result depends on the same lane of the four inputs only: on the rows a
  write-back moves the result is a function of rows the fetches landed, whatever the overhanging rows held. That is all
  the body obligation has to state, and it gives the program's frame: it runs to the end, faults nowhere, and leaves its
  arguments as it found them. The result array's contents are read off the same run elsewhere.
-/
import proofs.«427419_j10660108829455_3_alg».proof.Proof.Gen.KernelIdeal.Frame
import proofs.«427419_j10660108829455_3_alg».proof.Proof.Gen.KernelIdeal.Skeleton
import proofs.«427419_j10660108829455_3_alg».proof.Proof.LibWindowFill
import Idealize.ShloMosaic.Lib.Pipeline.Value

set_option maxRecDepth 16384

noncomputable section

namespace Cert.KernelIdeal.Flux

open Cert.KernelIdeal Cert.KernelIdeal.Gen Cert.LibWindowFill
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One grid point of the flux kernel

The body reads its four staging blocks whole (velocity, tracer at the link's head, tracer at the link's tail, the upwind
value), computes the limited flux lane by lane, and stores it whole into the result's staging block. -/

/-- The whole block as the body's one access rectangle. -/
abbrev wholeBlk : Rect S8192x128 := Rect.unit (s := S8192x128) ![0, 0] S8192x128.size inb_S8192x128_S8192x128_0_0

theorem offs_zero : (![0, 0] : Fin 2 → Nat) = fun _ => 0 := funext fun a => by fin_cases a <;> rfl

/-- What the result's staging block holds after the body, as the one whole store over what the four loads read. -/
def stored (x0 x1 x2 x3 : Vec F S8192x128 .f32) : Vec F S8192x128 .f32 :=
  View.canon [⟨wholeBlk, k0_pay1 (View.ld x0 wholeBlk) (View.ld x1 wholeBlk) (View.ld x2 wholeBlk) (View.ld x3 wholeBlk)⟩]

/-- The store is of the whole block and the loads are of whole blocks: the result's block is the lane-wise flux
    of the four input blocks. -/
theorem stored_eq (x0 x1 x2 x3 : Vec F S8192x128 .f32) : stored x0 x1 x2 x3 = k0_pay1 x0 x1 x2 x3 := by
  unfold stored
  rw [View.canon_unit_zero (S := S8192x128) offs_zero]
  simp only [View.ld_unit_zero (S := S8192x128) offs_zero]

set_option maxHeartbeats 1000000 in
/-- The body on whole staging memrefs: the four inputs' blocks are read and left as they were, the result's block,
    whatever it held, ends at the lane-wise flux of the four. -/
theorem sound_kernel (c : Dev nD) (E : Set ℕ) (i : grid0.Coords)
    (arg1 : Memref sig .tc .vmem S8192x128 .f32) (harg1 : arg1.IsWhole) (arg2 : Memref sig .tc .vmem S8192x128 .f32) (harg2 : arg2.IsWhole)
    (arg3 : Memref sig .tc .vmem S8192x128 .f32) (harg3 : arg3.IsWhole) (arg4 : Memref sig .tc .vmem S8192x128 .f32) (harg4 : arg4.IsWhole)
    (arg5 : Memref sig .tc .vmem S8192x128 .f32) (harg5 : arg5.IsWhole)
    (x0 x1 x2 x3 : Vec F S8192x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (k0_pay1 x0 x1 x2 x3)) -∗ K ⟨⟩))
      ⊢ wp frame (wpE (defs₀ (F := F)) Variants.none c none) E
          (cc0__flux_kernel i arg1 harg1 arg2 harg2 arg3 harg3 arg4 harg4 arg5 harg5) K := by
  rw [← stored_eq x0 x1 x2 x3]
  simp only [cc0__flux_kernel_eq_skeleton]; unfold cc0__flux_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (fun y => ⟨_, List.mem_singleton_self _, View.mem_set_unit_zero (S := S8192x128) offs_zero inb_S8192x128_S8192x128_0_0 y⟩)

/-! ## The proof data

Each of the eight grid points handles a block of 8192 rows of the 62500-row arrays; the last block overhangs the arrays'
end, so its fetches land only the rows inside the array and the staging rows past them hold words nothing names. The
body computes lane by lane, so on the rows inside the array its result depends on the rows inside the array only. -/

/-- Input window `w`'s staging block at point `t` once fetched, the rows past the array's end filled out with the zero
    word (a word the proof picks; nothing reads it). -/
def in0 (c : Dev nD) (t : Fin cfg0.N) : S8192x128.Idx → Elt F .f32 :=
  win0_0.fill (grid0.coords t) (fun _ => Scalar.ofBits .f32 0#32) (iblk m c 0 t)
def in1 (c : Dev nD) (t : Fin cfg0.N) : S8192x128.Idx → Elt F .f32 :=
  win0_1.fill (grid0.coords t) (fun _ => Scalar.ofBits .f32 0#32) (iblk m c 1 t)
def in2 (c : Dev nD) (t : Fin cfg0.N) : S8192x128.Idx → Elt F .f32 :=
  win0_2.fill (grid0.coords t) (fun _ => Scalar.ofBits .f32 0#32) (iblk m c 2 t)
def in3 (c : Dev nD) (t : Fin cfg0.N) : S8192x128.Idx → Elt F .f32 :=
  win0_3.fill (grid0.coords t) (fun _ => Scalar.ofBits .f32 0#32) (iblk m c 3 t)

/-- The proof data of the one pipeline on core `c`: the arrays as the region finds them; after the body each input's
    staging block as fetched and the result's at the lane-wise flux of the four; the class's invariant; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => in0 m c t
    | ⟨1, _⟩ => in1 m c t
    | ⟨2, _⟩ => in2 m c t
    | ⟨3, _⟩ => in3 m c t
    | ⟨4, _⟩ => k0_pay1 (in0 m c t) (in1 m c t) (in2 m c t) (in3 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = in0 m c t := by dsimp only [dats]
theorem after_1 (c : Dev nD) (t : Fin cfg0.N) : (dats m 0 c).after 1 t = in1 m c t := by dsimp only [dats]
theorem after_2 (c : Dev nD) (t : Fin cfg0.N) : (dats m 0 c).after 2 t = in2 m c t := by dsimp only [dats]
theorem after_3 (c : Dev nD) (t : Fin cfg0.N) : (dats m 0 c).after 3 t = in3 m c t := by dsimp only [dats]
theorem after_4 (c : Dev nD) (t : Fin cfg0.N) :
    (dats m 0 c).after 4 t = k0_pay1 (in0 m c t) (in1 m c t) (in2 m c t) (in3 m c t) := by dsimp only [dats]

/-- What the body finds: every input is fetched at every point, so its staging block holds the array's block on the
    rows inside the array and anything (`d`) past them; -/
theorem before_0 (c : Dev nD) (t : Fin cfg0.N) (d) :
    (dats m 0 c).before 0 t d = win0_0.fill (grid0.coords t) d (iblk m c 0 t) := by
  rw [Dat.before_fetched _ _ _ (fetch0_0 t)]; unfold Dat.fetched Dat.blockOf iblk; dsimp only [dats]
theorem before_1 (c : Dev nD) (t : Fin cfg0.N) (d) :
    (dats m 0 c).before 1 t d = win0_1.fill (grid0.coords t) d (iblk m c 1 t) := by
  rw [Dat.before_fetched _ _ _ (fetch0_1 t)]; unfold Dat.fetched Dat.blockOf iblk; dsimp only [dats]
theorem before_2 (c : Dev nD) (t : Fin cfg0.N) (d) :
    (dats m 0 c).before 2 t d = win0_2.fill (grid0.coords t) d (iblk m c 2 t) := by
  rw [Dat.before_fetched _ _ _ (fetch0_2 t)]; unfold Dat.fetched Dat.blockOf iblk; dsimp only [dats]
theorem before_3 (c : Dev nD) (t : Fin cfg0.N) (d) :
    (dats m 0 c).before 3 t d = win0_3.fill (grid0.coords t) d (iblk m c 3 t) := by
  rw [Dat.before_fetched _ _ _ (fetch0_3 t)]; unfold Dat.fetched Dat.blockOf iblk; dsimp only [dats]
/-- the result's staging block, written back at every point, holds anything. -/
theorem before_4 (c : Dev nD) (t : Fin cfg0.N) (d) : (dats m 0 c).before 4 t d = d := by
  refine Dat.before_out_reset _ 4 rfl t ?_ d
  by_cases h0 : t.val = 0
  · exact .inl h0
  · exact .inr ⟨h0, flush0_4 _⟩

/-! ## The body is lane-wise

Every operation of the payload acts lane by lane, so its value at a lane is a function of the four inputs at that
lane alone: inputs that agree at a lane give results that agree there. -/

theorem pay_congr_at {x0 x1 x2 x3 y0 y1 y2 y3 : Vec F S8192x128 .f32} (j : S8192x128.Idx)
    (h0 : x0 j = y0 j) (h1 : x1 j = y1 j) (h2 : x2 j = y2 j) (h3 : x3 j = y3 j) :
    k0_pay1 x0 x1 x2 x3 j = k0_pay1 y0 y1 y2 y3 j := by
  unfold k0_pay1
  simp only [shapeCast_self]
  simp only [mulf, addf, subf, divf, absf, select, cmpf, broadcast]
  rw [h0, h1, h2, h3]

/-- The five windows share one index map and one block shape, so the rows the result's write-back moves are rows every
    input's fetch landed: on them the flux of the blocks as fetched is the flux of the blocks filled out with zeros,
    whatever the staging rows past the array's end held. -/
theorem cut_pay (c : Dev nD) (t : Fin cfg0.N) (d0 d1 d2 d3 : S8192x128.Idx → Elt F .f32) :
    win0_4.cut (grid0.coords t) (k0_pay1 (win0_0.fill (grid0.coords t) d0 (iblk m c 0 t)) (win0_1.fill (grid0.coords t) d1 (iblk m c 1 t))
        (win0_2.fill (grid0.coords t) d2 (iblk m c 2 t)) (win0_3.fill (grid0.coords t) d3 (iblk m c 3 t)))
      = win0_4.cut (grid0.coords t) (k0_pay1 (in0 m c t) (in1 m c t) (in2 m c t) (in3 m c t)) := by
  funext j
  show k0_pay1 _ _ _ _ (win0_4.xinj (grid0.coords t) j) = k0_pay1 _ _ _ _ (win0_4.xinj (grid0.coords t) j)
  refine pay_congr_at _ ?_ ?_ ?_ ?_
  · exact fill_indep win0_0 _ _ _ _ ((win0_0.moved_iff _ _).mpr fun a => (j a).isLt)
  · exact fill_indep win0_1 _ _ _ _ ((win0_1.moved_iff _ _).mpr fun a => (j a).isLt)
  · exact fill_indep win0_2 _ _ _ _ ((win0_2.moved_iff _ _).mpr fun a => (j a).isLt)
  · exact fill_indep win0_3 _ _ _ _ ((win0_3.moved_iff _ _).mpr fun a => (j a).isLt)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns: each staging block stated on the rows its window's transfers move, anything past them. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t))))
    ∗ (∃ d, owns (c : Thread nD τ) (st0_3 t) fullShare (win0_3.fill (grid0.coords t) d (win0_3.cut (grid0.coords t) ((dats m 0 c).after 3 t))))
    ∗ (∃ d, owns (c : Thread nD τ) (st0_4 t) fullShare (win0_4.fill (grid0.coords t) d (win0_4.cut (grid0.coords t) ((dats m 0 c).after 4 t)))))

/-- The body at any point: the inputs' staging blocks hold their fetched blocks, the rows past the array's end at
    anything; the body leaves them so and the result's at their lane-wise flux, which on the rows the write-back moves
    is the proof data's. The invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  rw [before_0 m c t d0, before_1 m c t d1, before_2 m c t d2, before_3 m c t d3, before_4 m c t d4]
  iapply (sound_kernel c Set.univ (grid0.coords t) _ _ _ _ _ _ _ _ _ _
    (win0_0.fill (grid0.coords t) d0 (iblk m c 0 t)) (win0_1.fill (grid0.coords t) d1 (iblk m c 1 t))
    (win0_2.fill (grid0.coords t) d2 (iblk m c 2 t)) (win0_3.fill (grid0.coords t) d3 (iblk m c 3 t)) _)
  isplitl [H0]; · iexact H0
  isplitl [H1]; · iexact H1
  isplitl [H2]; · iexact H2
  isplitl [H3]; · iexact H3
  isplitl [H4]; · iexists d4; iexact H4
  iintro ⟨H0, H1, H2, H3, H4⟩
  isplitl [HΦ]; · iexact HΦ
  isplitl [Ho]; · iexact Ho
  isplitl [H0]
  · iexists d0
    rw [show win0_0.cut (grid0.coords t) (in0 m c t) = iblk m c 0 t from win0_0.cut_fill _ _ _]
    iexact H0
  isplitl [H1]
  · iexists d1
    rw [show win0_1.cut (grid0.coords t) (in1 m c t) = iblk m c 1 t from win0_1.cut_fill _ _ _]
    iexact H1
  isplitl [H2]
  · iexists d2
    rw [show win0_2.cut (grid0.coords t) (in2 m c t) = iblk m c 2 t from win0_2.cut_fill _ _ _]
    iexact H2
  isplitl [H3]
  · iexists d3
    rw [show win0_3.cut (grid0.coords t) (in3 m c t) = iblk m c 3 t from win0_3.cut_fill _ _ _]
    iexact H3
  · iexists k0_pay1 (win0_0.fill (grid0.coords t) d0 (iblk m c 0 t)) (win0_1.fill (grid0.coords t) d1 (iblk m c 1 t))
      (win0_2.fill (grid0.coords t) d2 (iblk m c 2 t)) (win0_3.fill (grid0.coords t) d3 (iblk m c 3 t))
    rw [win0_4.fill_congr_cut _ (cut_pay m c t d0 d1 d2 d3)]
    iexact H4

/-- The library's body obligation, at every point (every window is stated on the part its transfers move). -/
theorem body_obligation (c : Dev nD) : BodyObligationLoose (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- At the compiled mesh, for any values, from any memory with zero counters: every weakly fair execution of @main on
    the TensorCores terminates; every final state has each array of the pipeline at what the library computes from the
    proof data, and every other unscoped buffer as the host lines after the region leave it. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2, hostOps1_3, hostOps1_4])) :=
  Pipeline.θ_run_frame_around cfgs (dats m) (0 : Fin 1) launch0 defs₀ Variants.none m ρ main
    (hbody := body_obligation m) (hshare := fun c => (dats m 0 c).share_full fun _ => rfl)
    (howed := fun _ _ => rfl) (V₀ := V0 m) (opss := [hostOps1, hostOps1_1, hostOps1_2, hostOps1_3, hostOps1_4])
    (hsub := sfx_sub) (hfresh := sfx_fresh) (hkeep := sfx_keeps)
    (hmain := hmain m Variants.none) (hA := A_eq m) (hΦ := fun _ _ => rfl)

/-- The program runs to the end, faults nowhere, and leaves its eight argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Flux

end
-- ==== Proof.FluxSpec.lean ====
/-
  The limited flux of one link, as a function of four numbers, and the field of fluxes lane by lane.

  With `v` the link's velocity, `h` and `t` the tracer at the link's head and tail and `u` the upwind value: the donor cell
  `c` is the tail when `v ≥ 0` and the head otherwise, the receiver `w` the other one, `δ = w − c`; the slope ratio is
  `r = (c − u) / δ` where `δ ≠ 0` and `0` elsewhere (the divisor replaced by `1` where `δ = 0`, so nothing is divided by
  zero); the van Leer limiter is `ψ(r) = (r + |r|) / (1 + |r|)`; the face value is `c + ½ ψ(r) δ` and the flux `v` times it.
  The kernel and the host program spell the same arithmetic with different operations (the kernel's division and absolute
  value against the host's, an ordered against an unordered "not equal"); over the extended reals these are the same
  functions, so the two spellings agree there.
-/
import Idealize.ShloMosaic.PureOps.Ideal
import Idealize.ShloMosaic.PureOps.Ideal.Laws

noncomputable section

namespace Cert.FluxSpec

open Idealize.ShloMosaic

variable {F : FTy → Type} [FloatOps F]

/-- The limited flux of one link in the kernel's operations. -/
def lane (v h t u : F .f32) : F .f32 :=
  let z : F .f32 := Scalar.ofBits .f32 0x00000000#32
  let one : F .f32 := Scalar.ofBits .f32 0x3F800000#32
  let half : F .f32 := Scalar.ofBits .f32 0x3F000000#32
  let pos := FloatOps.cmpf .oge v z
  let c := Scalar.select pos t h
  let w := Scalar.select pos h t
  let δ := FloatOps.subf w c
  let nz := FloatOps.cmpf .one δ z
  let r := Scalar.select nz (FloatOps.divf (FloatOps.subf c u) (Scalar.select nz δ one)) z
  let ψ := FloatOps.divf (FloatOps.addf r (FloatOps.absf r)) (FloatOps.addf one (FloatOps.absf r))
  FloatOps.mulf v (FloatOps.addf c (FloatOps.mulf (FloatOps.mulf half ψ) δ))

/-- The same in the host program's operations. -/
def laneHost (v h t u : F .f32) : F .f32 :=
  let z : F .f32 := Scalar.ofBits .f32 0x00000000#32
  let one : F .f32 := Scalar.ofBits .f32 0x3F800000#32
  let half : F .f32 := Scalar.ofBits .f32 0x3F000000#32
  let pos := FloatOps.cmpf .oge v z
  let c := Scalar.select pos t h
  let w := Scalar.select pos h t
  let δ := FloatOps.subf w c
  let nz := FloatOps.cmpf .une δ z
  let r := Scalar.select nz (FloatOps.hostDivf (FloatOps.subf c u) (Scalar.select nz δ one)) z
  let ψ := FloatOps.hostDivf (FloatOps.addf r (FloatOps.hostAbsf r)) (FloatOps.addf one (FloatOps.hostAbsf r))
  FloatOps.mulf v (FloatOps.addf c (FloatOps.mulf (FloatOps.mulf half ψ) δ))

/-- Over the extended reals nothing is unordered, the host's quotient is the kernel's and so is its absolute value: the
    two spellings are one function. -/
theorem lane_eq_laneHost (v h t u : Ideal .f32) : lane v h t u = laneHost v h t u := rfl

/-- The field of fluxes: the lane function at every index of arrays of one shape. -/
def field {s : Shape} (a h t u : s.Idx → F .f32) : s.Idx → F .f32 := fun i => lane (a i) (h i) (t i) (u i)

/-- The same in the host's spelling. -/
def fieldHost {s : Shape} (a h t u : s.Idx → F .f32) : s.Idx → F .f32 := fun i => laneHost (a i) (h i) (t i) (u i)

theorem field_eq_fieldHost {s : Shape} (a h t u : s.Idx → Ideal .f32) : field a h t u = fieldHost a h t u :=
  funext fun i => lane_eq_laneHost _ _ _ _

/-- Re-laying the field out in another shape is the field of the re-laid arrays: the flux is lane-wise. -/
theorem shapeCast_field {s t : Shape} (a h tl u : s.Idx → F .f32) (hc : s.ShapeCasts t) :
    shapeCast t (field a h tl u) hc = field (shapeCast t a hc) (shapeCast t h hc) (shapeCast t tl hc) (shapeCast t u hc) := rfl

end Cert.FluxSpec

end
-- ==== Proof.FluxValueIdeal.lean ====
/-
  What the flux kernel's result array holds after the run: the field of limited fluxes of the four link arrays the
  region finds, index by index over all 62500 rows.

  Point `t` writes back rows `8192·t ‥ min(8192·t + 8192, 62500) − 1` of the result; on them the staging block holds the
  lane-wise flux of the four inputs' staging blocks, and those hold, on the same rows, the arrays' rows (the five windows
  share one index map, so a lane of the result's block and the lanes it was computed from sit at one array index). The
  eight ranges cover every row — row `r` is in block `r / 8192` — so the whole array is the field.
-/
import proofs.«427419_j10660108829455_3_alg».proof.Proof.FluxBodyIdeal
import proofs.«427419_j10660108829455_3_alg».proof.Proof.FluxSpec
import Idealize.ShloMosaic.Lib.Pipeline.Value
import Idealize.ShloMosaic.Lib.StableHlo.Run

set_option maxRecDepth 16384

noncomputable section

namespace Cert.KernelIdeal.FluxValue

open Cert.KernelIdeal Cert.KernelIdeal.Gen Cert.KernelIdeal.Flux Cert.FluxSpec Cert.LibWindowFill
open Idealize.ShloMosaic Idealize.ShloMosaic.TcCoe Idealize.SL.Sem
open Idealize.ShloMosaic.Pipeline (Dat Cfg Window)

variable {F : FTy → Type} [FloatOps F]

variable (m : (ℓ : Loc nD τ sig) → Buf (Elt F) ℓ) (ρ : Dev nD → PrngReg)

/-! ## The body's payload is the lane function at every lane -/

theorem pay_eq_field (x0 x1 x2 x3 : Vec F S8192x128 .f32) : k0_pay1 x0 x1 x2 x3 = field x0 x1 x2 x3 := by
  unfold k0_pay1
  simp only [shapeCast_self]
  rfl

/-! ## The windows' index maps, decided over the eight points -/

/-- The five windows move together: block row `t`, block column 0. The result's write-back at point `t` moves all 128
    lanes of the rows from `8192·t` up to the array's end or the block's, whichever comes first. -/
theorem idx_facts : ∀ t : Fin cfg0.N,
    win0_4.index t (0 : Fin 2) = t.val ∧ win0_4.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.xsize (grid0.coords t) (1 : Fin 2) = 128
    ∧ t.val * 8192 + win0_4.xsize (grid0.coords t) (0 : Fin 2) = min (t.val * 8192 + 8192) 62500 :=
  (by decide +kernel : ∀ t : Fin grid0.N, _)

/-! ## What each input's staging block holds on a lane the result's write-back moves: the array's word there -/

theorem in0_at (c : Dev nD) (t : Fin cfg0.N) (j : (win0_4.xblock (grid0.coords t)).Idx) :
    in0 m c t (win0_4.xinj (grid0.coords t) j) = V m c main_v14 (((cfg0.win 4).blk t).view.emb j) := by
  unfold in0
  rw [fill_at win0_0 _ _ _ ((win0_0.moved_iff _ _).mpr fun a => (j a).isLt)]
  show V m c main_v14 (((cfg0.win 0).blk t).view.emb _) = V m c main_v14 (((cfg0.win 4).blk t).view.emb j)
  rfl

theorem in1_at (c : Dev nD) (t : Fin cfg0.N) (j : (win0_4.xblock (grid0.coords t)).Idx) :
    in1 m c t (win0_4.xinj (grid0.coords t) j) = V m c main_v15 (((cfg0.win 4).blk t).view.emb j) := by
  unfold in1
  rw [fill_at win0_1 _ _ _ ((win0_1.moved_iff _ _).mpr fun a => (j a).isLt)]
  show V m c main_v15 (((cfg0.win 1).blk t).view.emb _) = V m c main_v15 (((cfg0.win 4).blk t).view.emb j)
  rfl

theorem in2_at (c : Dev nD) (t : Fin cfg0.N) (j : (win0_4.xblock (grid0.coords t)).Idx) :
    in2 m c t (win0_4.xinj (grid0.coords t) j) = V m c main_v16 (((cfg0.win 4).blk t).view.emb j) := by
  unfold in2
  rw [fill_at win0_2 _ _ _ ((win0_2.moved_iff _ _).mpr fun a => (j a).isLt)]
  show V m c main_v16 (((cfg0.win 2).blk t).view.emb _) = V m c main_v16 (((cfg0.win 4).blk t).view.emb j)
  rfl

theorem in3_at (c : Dev nD) (t : Fin cfg0.N) (j : (win0_4.xblock (grid0.coords t)).Idx) :
    in3 m c t (win0_4.xinj (grid0.coords t) j) = V m c main_v17 (((cfg0.win 4).blk t).view.emb j) := by
  unfold in3
  rw [fill_at win0_3 _ _ _ ((win0_3.moved_iff _ _).mpr fun a => (j a).isLt)]
  show V m c main_v17 (((cfg0.win 3).blk t).view.emb _) = V m c main_v17 (((cfg0.win 4).blk t).view.emb j)
  rfl

/-! ## From blocks to the array -/

/-- The field of fluxes of the four link arrays as the region finds them. -/
def G (c : Dev nD) : S62500x128.Idx → Elt F .f32 :=
  field (V m c main_v14) (V m c main_v15) (V m c main_v16) (V m c main_v17)

/-- What point `t` writes back is block `t` of the field. -/
theorem flushed_eq (c : Dev nD) (t : Fin cfg0.N) :
    (dats m 0 c).flushed 4 t = ((cfg0.win 4).blk t).view.read (Elt F) (G m c) := by
  show (cfg0.win 4).cut (grid0.coords t) ((dats m 0 c).after 4 t) = _
  rw [after_4, pay_eq_field]
  funext j
  show lane (in0 m c t (win0_4.xinj (grid0.coords t) j)) (in1 m c t (win0_4.xinj (grid0.coords t) j))
      (in2 m c t (win0_4.xinj (grid0.coords t) j)) (in3 m c t (win0_4.xinj (grid0.coords t) j))
    = lane (V m c main_v14 (((cfg0.win 4).blk t).view.emb j)) (V m c main_v15 (((cfg0.win 4).blk t).view.emb j))
      (V m c main_v16 (((cfg0.win 4).blk t).view.emb j)) (V m c main_v17 (((cfg0.win 4).blk t).view.emb j))
  rw [in0_at, in1_at, in2_at, in3_at]

/-- A row and lane of the array is in point `t`'s block iff it is within the rows and lanes the write-back moves. -/
theorem mem_blk (t : Fin cfg0.N) (i : S62500x128.Idx) :
    i ∈ ((cfg0.win 4).blk t).view.set ↔ ∀ a : Fin 2, win0_4.index t a * S8192x128.size a ≤ (i a).val
      ∧ (i a).val < win0_4.index t a * S8192x128.size a + win0_4.xsize (grid0.coords t) a := by
  show i ∈ ((View.whole main_v18).slice (win0_4.rect t)).set ↔ _
  rw [View.set_slice_whole, Rect.mem_set_unit]
  exact Iff.rfl

/-- Every row is in the block of the point `row / 8192`. -/
theorem covered (i : S62500x128.Idx) :
    ∃ t : Fin cfg0.N, (cfg0.win 4).flush t = true ∧ i ∈ ((cfg0.win 4).blk t).view.set := by
  have hi0 : (i 0).val < 62500 := (i 0).isLt
  have hi1 : (i 1).val < 128 := (i 1).isLt
  have hN : cfg0.N = 8 := N_0
  let t : Fin cfg0.N := ⟨(i 0).val / 8192, by rw [hN]; omega⟩
  have ht : t.val = (i 0).val / 8192 := rfl
  refine ⟨t, flush0_4 t, ?_⟩
  rw [mem_blk]
  obtain ⟨e0, e1, -, -, -, -, -, -, -, -, x1, x0⟩ := idx_facts t
  intro a
  match a with
  | ⟨0, _⟩ =>
    show win0_4.index t (0 : Fin 2) * 8192 ≤ (i 0).val ∧ (i 0).val < win0_4.index t (0 : Fin 2) * 8192 + win0_4.xsize (grid0.coords t) (0 : Fin 2)
    omega
  | ⟨1, _⟩ =>
    show win0_4.index t (1 : Fin 2) * 128 ≤ (i 1).val ∧ (i 1).val < win0_4.index t (1 : Fin 2) * 128 + win0_4.xsize (grid0.coords t) (1 : Fin 2)
    omega

/-- The result array after the run is the field of fluxes, every row of it. -/
theorem final (c : Dev nD) : (dats m 0 c).arrAt 4 cfg0.N = G m c :=
  (dats m 0 c).arrAt_eq_of_cover 4 (G m c) (fun t _ => flushed_eq m c t) (covered)

/-! ## The host lines around the region

Before the region the host program wraps each signed node index (a negative one counts from the array's end), gathers
the tracer at every link's head and tail node, and re-lays the four link arrays as 62500 rows of 128 lanes. After it,
it re-lays the flux as one row, gathers each node's four link fluxes (indices wrapped likewise), sums them, divides by
the cell's area where that is not zero (and takes zero where it is), and adds `dt` times that to the tracer. -/

/-- A link's node index as the host program reads it: a negative one counts from the array's end. -/
def wrapNode (a : (⟨S8000000, .i32⟩ : BufTy).Contents (Elt F)) : (⟨S8000000, .i32⟩ : BufTy).Contents (Elt F) :=
  select (cmpi .slt a (broadcastInDim S8000000 ![] bcast_S_S8000000 (constantI S_ 32 0#32)))
    (addi a (broadcastInDim S8000000 ![] bcast_S_S8000000 (constantI S_ 32 4000000#32))) a

/-- The tracer at the node each link names. -/
def atLinks (tr : (⟨S4000000, .f32⟩ : BufTy).Contents (Elt F)) (a : (⟨S8000000, .i32⟩ : BufTy).Contents (Elt F)) :
    (⟨S8000000, .f32⟩ : BufTy).Contents (Elt F) :=
  Host.gather gather_S4000000_S8000000x1_S8000000_n_0_n_n_0_1_1 tr (broadcastInDim S8000000x1 ![0] bcast_S8000000_S8000000x1_0 (wrapNode a))

/-- The node update from the link fluxes: the tracer plus `dt` times the summed flux of the node's four links over the
    cell's area, zero where the area is zero. -/
def nodeUpdate (flux : (⟨S8000000, .f32⟩ : BufTy).Contents (Elt F)) (tr area : (⟨S4000000, .f32⟩ : BufTy).Contents (Elt F))
    (links : (⟨S4000000x4, .i32⟩ : BufTy).Contents (Elt F)) (dt : (⟨S_, .f32⟩ : BufTy).Contents (Elt F)) :
    (⟨S4000000, .f32⟩ : BufTy).Contents (Elt F) :=
  addf tr (mulf (broadcastInDim S4000000 ![] bcast_S_S4000000 dt)
    (select (cmpf .une area (broadcastInDim S4000000 ![] bcast_S_S4000000 (constant S_ .f32 0x00000000#32)))
      (Host.divf
        (Host.reduceAdd
          (Host.gather gather_S8000000_S4000000x4x1_S4000000x4_n_0_n_n_0_2_1 flux
            (broadcastInDim S4000000x4x1 ![0, 1] bcast_S4000000x4_S4000000x4x1_0_1
              (select (cmpi .slt links (broadcastInDim S4000000x4 ![] bcast_S_S4000000x4 (constantI S_ 32 0#32)))
                (addi links (broadcastInDim S4000000x4 ![] bcast_S_S4000000x4 (constantI S_ 32 8000000#32))) links)))
          (constant S_ .f32 0x00000000#32) reducesTo_S4000000x4_S4000000_d1 h_S_)
        (select (cmpf .une area (broadcastInDim S4000000 ![] bcast_S_S4000000 (constant S_ .f32 0x00000000#32))) area
          (broadcastInDim S4000000 ![] bcast_S_S4000000 (id (constant S_ .f32 0x3F800000#32)))))
      (broadcastInDim S4000000 ![] bcast_S_S4000000 (id (constant S_ .f32 0x00000000#32)))))

/-- The four link arrays as the region finds them: the velocity, the tracer at the links' heads and tails, and the upwind
    values, each re-laid as 62500 rows of 128 lanes. -/
theorem V_v14 (c : Dev nD) : (V m c main_v14 : S62500x128.Idx → Elt F .f32)
    = shapeCast S62500x128 (m ((c : Thread nD τ).loc main_arg0)) shapeCasts_S8000000_S62500x128 := by
  show StableHlo.after hostOps0 (fun b => m (c, b)) (Proc.devRef .tc main_v14) = _
  after_results
  rfl
theorem V_v17 (c : Dev nD) : (V m c main_v17 : S62500x128.Idx → Elt F .f32)
    = shapeCast S62500x128 (m ((c : Thread nD τ).loc main_arg2)) shapeCasts_S8000000_S62500x128 := by
  show StableHlo.after hostOps0 (fun b => m (c, b)) (Proc.devRef .tc main_v17) = _
  after_results
  rfl
theorem V_v15 (c : Dev nD) : (V m c main_v15 : S62500x128.Idx → Elt F .f32)
    = shapeCast S62500x128 (atLinks (m ((c : Thread nD τ).loc main_arg1)) (m ((c : Thread nD τ).loc main_arg4))) shapeCasts_S8000000_S62500x128 := by
  show StableHlo.after hostOps0 (fun b => m (c, b)) (Proc.devRef .tc main_v15) = _
  after_results
  rfl
theorem V_v16 (c : Dev nD) : (V m c main_v16 : S62500x128.Idx → Elt F .f32)
    = shapeCast S62500x128 (atLinks (m ((c : Thread nD τ).loc main_arg1)) (m ((c : Thread nD τ).loc main_arg5))) shapeCasts_S8000000_S62500x128 := by
  show StableHlo.after hostOps0 (fun b => m (c, b)) (Proc.devRef .tc main_v16) = _
  after_results
  rfl

/-- The flux, re-laid as one row, is the field of fluxes of the link arrays themselves: the field is lane-wise, and a
    re-laying there and back is the identity. -/
theorem flux_row (c : Dev nD) :
    shapeCast S8000000 (G m c) shapeCasts_S62500x128_S8000000
      = field (m ((c : Thread nD τ).loc main_arg0)) (atLinks (m ((c : Thread nD τ).loc main_arg1)) (m ((c : Thread nD τ).loc main_arg4)))
          (atLinks (m ((c : Thread nD τ).loc main_arg1)) (m ((c : Thread nD τ).loc main_arg5))) (m ((c : Thread nD τ).loc main_arg2)) := by
  unfold G
  rw [shapeCast_field, V_v14, V_v15, V_v16, V_v17]
  simp only [shapeCast_shapeCast]

end Cert.KernelIdeal.FluxValue

end
-- ==== Proof.FluxTailIdeal.lean ====
/-
  The flux kernel's program result: after the region the host lines re-lay the result array as one row, gather each
  node's four link fluxes, sum, divide by the cell's area where it is not zero, and add `dt` times that to the tracer —
  the node update of the field of limited fluxes of the link arrays.
-/
import proofs.«427419_j10660108829455_3_alg».proof.Proof.FluxValueIdeal

set_option maxRecDepth 16384

noncomputable section

namespace Cert.KernelIdeal.FluxValue

open Cert.KernelIdeal Cert.KernelIdeal.Gen Cert.KernelIdeal.Flux Cert.FluxSpec
open Idealize.ShloMosaic Idealize.ShloMosaic.TcCoe Idealize.SL.Sem Idealize.ShloMosaic.StableHlo
open Idealize.ShloMosaic.Pipeline (Dat Cfg Window)

variable {F : FTy → Type} [FloatOps F]

variable (m : (ℓ : Loc nD τ sig) → Buf (Elt F) ℓ) (ρ : Dev nD → PrngReg)

set_option maxHeartbeats 8000000 in
/-- What the host lines after the region leave in the result buffer: the node update of the re-laid result array. -/
theorem tail_eq (c : Dev nD) :
    Pipeline.afterTail₀ cfgs (dats m) 0 (V0 m) [hostOps1, hostOps1_1, hostOps1_2, hostOps1_3, hostOps1_4] c main_v35
      = nodeUpdate (shapeCast S8000000 ((dats m 0 c).arrAt 4 cfg0.N) shapeCasts_S62500x128_S8000000)
          (m ((c : Thread nD τ).loc main_arg1)) (m ((c : Thread nD τ).loc main_arg3)) (m ((c : Thread nD τ).loc main_arg6))
          (m ((c : Thread nD τ).loc main_arg7)) := by
  unfold Pipeline.afterTail₀
  simp only [hostOps1, hostOps1_1, hostOps1_2, hostOps1_3, hostOps1_4, List.flatten_cons, List.flatten_nil, List.append_nil,
    List.cons_append, List.nil_append]
  after_results_simp
  have e1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans (V_main_arg1 m c)
  have e3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans (V_main_arg3 m c)
  have e6 : Pipeline.withArrays (cfgs 0).spec c (V0 m c) (fun w => (dats m 0 c).arrAt w (cfgs 0).N) (Proc.devRef .tc main_arg6)
      = m ((c : Thread nD τ).loc main_arg6) :=
    (Pipeline.withArrays_of_ne _ c (V0 m c) _ main_arg6 (by exact (by decide : ∀ w, Pipeline.arrRef spec0 w ≠ main_arg6))).trans (V_main_arg6 m c)
  have e7 : Pipeline.withArrays (cfgs 0).spec c (V0 m c) (fun w => (dats m 0 c).arrAt w (cfgs 0).N) (Proc.devRef .tc main_arg7)
      = m ((c : Thread nD τ).loc main_arg7) :=
    (Pipeline.withArrays_of_ne _ c (V0 m c) _ main_arg7 (by exact (by decide : ∀ w, Pipeline.arrRef spec0 w ≠ main_arg7))).trans (V_main_arg7 m c)
  have e18 : Pipeline.withArrays (cfgs 0).spec c (V0 m c) (fun w => (dats m 0 c).arrAt w (cfgs 0).N) (Proc.devRef .tc main_v18)
      = (dats m 0 c).arrAt 4 cfg0.N :=
    Pipeline.withArrays_arr spec0 launch0.win.arr_inj c _ _ 4
  rw [e1, e3, e6, e7, e18]
  rfl

/-- The program's result as a function of its arguments: the node update of the field of limited fluxes of the velocity,
    the tracer gathered at the links' heads and tails, and the upwind values. -/
def result (c : Dev nD) : Buf (Elt F) ((c.tc : Thread nD τ).loc main_v35) :=
  nodeUpdate
    (field (m ((c : Thread nD τ).loc main_arg0)) (atLinks (m ((c : Thread nD τ).loc main_arg1)) (m ((c : Thread nD τ).loc main_arg4)))
      (atLinks (m ((c : Thread nD τ).loc main_arg1)) (m ((c : Thread nD τ).loc main_arg5))) (m ((c : Thread nD τ).loc main_arg2)))
    (m ((c : Thread nD τ).loc main_arg1)) (m ((c : Thread nD τ).loc main_arg3)) (m ((c : Thread nD τ).loc main_arg6))
    (m ((c : Thread nD τ).loc main_arg7))

theorem result_eq (c : Dev nD) :
    Pipeline.afterTail₀ cfgs (dats m) 0 (V0 m) [hostOps1, hostOps1_1, hostOps1_2, hostOps1_3, hostOps1_4] c main_v35 = result m c := by
  rw [tail_eq, final, flux_row]
  rfl

/-- The idealized program's run with its result named: every weakly fair execution terminates, the result buffer holds
    `result`, and the eight arguments are as they were. -/
theorem run_value : θ_run defs (onTc (τ := τ) (main (F := F))) ⟨m, fun _ => 0, ρ⟩ (fun r => ∀ c : Dev nD,
      r.2.mem ((c.tc : Thread nD τ).loc main_v35) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_v35 (Pipeline.mem_restRefs_of main_v35 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main m ρ)

end Cert.KernelIdeal.FluxValue

end
-- ==== Proof.FluxRef.lean ====
/-
  What the reference computes, read off its run: the node update applied to the field of limited fluxes.

  The host program gathers the tracer at every link's head and tail node (a negative index counting from the array's
  end), computes the limited flux of every link operation by operation over the whole 8 000 000-link arrays, gathers
  each node's four link fluxes, sums them, divides by the cell's area where that is not zero, and adds `dt` times that
  to the tracer. Its flux stage, read at an index, is the lane function in the host's operations.
-/
import proofs.«427419_j10660108829455_3_alg».proof.Proof.Gen.ReferenceIdeal.Run
import proofs.«427419_j10660108829455_3_alg».proof.Proof.FluxSpec

set_option maxRecDepth 16384

noncomputable section

namespace Cert.ReferenceIdeal.FluxRef

open Cert.ReferenceIdeal Cert.ReferenceIdeal.Gen Cert.ReferenceIdeal.Value Cert.FluxSpec
open Idealize.ShloMosaic Idealize.ShloMosaic.TcCoe Idealize.SL.Sem

variable {F : FTy → Type} [FloatOps F]

/-- A link's node index as the host program reads it: a negative one counts from the array's end. -/
def wrapNode (a : (⟨S8000000, .i32⟩ : BufTy).Contents (Elt F)) : (⟨S8000000, .i32⟩ : BufTy).Contents (Elt F) :=
  select (cmpi .slt a (broadcastInDim S8000000 ![] bcast_S_S8000000 (constantI S_ 32 0#32)))
    (addi a (broadcastInDim S8000000 ![] bcast_S_S8000000 (constantI S_ 32 4000000#32))) a

/-- The tracer at the node each link names. -/
def atLinks (tr : (⟨S4000000, .f32⟩ : BufTy).Contents (Elt F)) (a : (⟨S8000000, .i32⟩ : BufTy).Contents (Elt F)) :
    (⟨S8000000, .f32⟩ : BufTy).Contents (Elt F) :=
  Host.gather gather_S4000000_S8000000x1_S8000000_n_0_n_n_0_1_1 tr (broadcastInDim S8000000x1 ![0] bcast_S8000000_S8000000x1_0 (wrapNode a))

/-- The node update from the link fluxes: the tracer plus `dt` times the summed flux of the node's four links over the
    cell's area, zero where the area is zero. -/
def nodeUpdate (flux : (⟨S8000000, .f32⟩ : BufTy).Contents (Elt F)) (tr area : (⟨S4000000, .f32⟩ : BufTy).Contents (Elt F))
    (links : (⟨S4000000x4, .i32⟩ : BufTy).Contents (Elt F)) (dt : (⟨S_, .f32⟩ : BufTy).Contents (Elt F)) :
    (⟨S4000000, .f32⟩ : BufTy).Contents (Elt F) :=
  addf tr (mulf (broadcastInDim S4000000 ![] bcast_S_S4000000 dt)
    (select (cmpf .une area (broadcastInDim S4000000 ![] bcast_S_S4000000 (constant S_ .f32 0x00000000#32)))
      (Host.divf
        (Host.reduceAdd
          (Host.gather gather_S8000000_S4000000x4x1_S4000000x4_n_0_n_n_0_2_1 flux
            (broadcastInDim S4000000x4x1 ![0, 1] bcast_S4000000x4_S4000000x4x1_0_1
              (select (cmpi .slt links (broadcastInDim S4000000x4 ![] bcast_S_S4000000x4 (constantI S_ 32 0#32)))
                (addi links (broadcastInDim S4000000x4 ![] bcast_S_S4000000x4 (constantI S_ 32 8000000#32))) links)))
          (constant S_ .f32 0x00000000#32) reducesTo_S4000000x4_S4000000_d1 h_S_)
        (select (cmpf .une area (broadcastInDim S4000000 ![] bcast_S_S4000000 (constant S_ .f32 0x00000000#32))) area
          (broadcastInDim S4000000 ![] bcast_S_S4000000 (id (constant S_ .f32 0x3F800000#32)))))
      (broadcastInDim S4000000 ![] bcast_S_S4000000 (id (constant S_ .f32 0x00000000#32)))))

/-- The host program's flux stage, operation by operation over the whole link arrays: the donor and receiver by the
    velocity's sign, their difference, the guarded slope ratio, the van Leer limiter, the face value, the flux. -/
def fluxOps (a h t u : (⟨S8000000, .f32⟩ : BufTy).Contents (Elt F)) : (⟨S8000000, .f32⟩ : BufTy).Contents (Elt F) :=
  let pos := cmpf .oge a (broadcastInDim S8000000 ![] bcast_S_S8000000 (constant S_ .f32 0x00000000#32))
  let c := select pos t h
  let w := select pos h t
  let δ := subf w c
  let nz := cmpf .une δ (broadcastInDim S8000000 ![] bcast_S_S8000000 (constant S_ .f32 0x00000000#32))
  let r := select nz (Host.divf (subf c u) (select nz δ (broadcastInDim S8000000 ![] bcast_S_S8000000 (id (constant S_ .f32 0x3F800000#32)))))
    (broadcastInDim S8000000 ![] bcast_S_S8000000 (id (constant S_ .f32 0x00000000#32)))
  mulf a (addf c (mulf (mulf (broadcastInDim S8000000 ![] bcast_S_S8000000 (constant S_ .f32 0x3F000000#32))
    (Host.divf (addf r (Host.absf r)) (addf (broadcastInDim S8000000 ![] bcast_S_S8000000 (constant S_ .f32 0x3F800000#32)) (Host.absf r)))) δ))

/-- At an index the flux stage is the lane function in the host's operations: every operation of it is lane-wise, and a
    broadcast constant is that constant at every lane. -/
theorem fluxOps_eq (a h t u : (⟨S8000000, .f32⟩ : BufTy).Contents (Elt F)) : fluxOps a h t u = fieldHost a h t u := by
  funext i
  rfl

/-- The reference's result, as its run states it, is the node update of the flux stage of the gathered tracers. -/
theorem res_eq (m : (ℓ : Loc nD τ sig) → Buf (Elt F) ℓ) (c : Dev nD) :
    res_out0 m c = nodeUpdate
      (fluxOps (m ((c.tc : Thread nD τ).loc main_arg0)) (atLinks (m ((c.tc : Thread nD τ).loc main_arg1)) (m ((c.tc : Thread nD τ).loc main_arg4)))
        (atLinks (m ((c.tc : Thread nD τ).loc main_arg1)) (m ((c.tc : Thread nD τ).loc main_arg5))) (m ((c.tc : Thread nD τ).loc main_arg2)))
      (m ((c.tc : Thread nD τ).loc main_arg1)) (m ((c.tc : Thread nD τ).loc main_arg3)) (m ((c.tc : Thread nD τ).loc main_arg6))
      (m ((c.tc : Thread nD τ).loc main_arg7)) := by
  show res_main_v53 m c = _
  unfold res_main_v53
  rfl

end Cert.ReferenceIdeal.FluxRef

end
-- ==== Proof.lean ====
/-
  The flux-limiter kernel against its reference: both compute, for every node, the tracer plus `dt` times the summed
  limited flux of the node's four links over the cell's area (zero where the area is zero).

  The kernel gathers the tracer at the links' heads and tails on the host, lays the four link arrays out as 62500 rows of
  128 lanes, computes the limited flux lane by lane in eight blocks of 8192 rows (the last overhanging the arrays: its
  rows past the end are neither named nor written back), lays the flux back out as one row and does the node update on
  the host. The reference does all of it on the host over the one-row arrays. The flux is lane-wise, so re-laying the
  arrays, computing block by block and re-laying back changes nothing; over the extended reals the kernel's division,
  absolute value and ordered "not equal" are the host's; and the gathers and the node update are the same host operations
  on both sides. No law of arithmetic is used, so the inputs' finiteness is never needed. The ideal pass rewrote nothing,
  so the word-level kernel's idealization is its own text.
-/
import proofs.«427419_j10660108829455_3_alg».proof.Defs
import proofs.«427419_j10660108829455_3_alg».proof.Proof.Gen.Kernel
import proofs.«427419_j10660108829455_3_alg».proof.Proof.Gen.KernelIdeal
import proofs.«427419_j10660108829455_3_alg».proof.Proof.Gen.ReferenceIdeal
import proofs.«427419_j10660108829455_3_alg».proof.Proof.Gen.Pre_finite_inputs
import proofs.«427419_j10660108829455_3_alg».proof.Proof.FluxBody
import proofs.«427419_j10660108829455_3_alg».proof.Proof.FluxTailIdeal
import proofs.«427419_j10660108829455_3_alg».proof.Proof.FluxRef
import Idealize.ShloMosaic.Adequacy
import Idealize.ShloMosaic.Init

noncomputable section

namespace Cert.Proof

open Idealize.ShloMosaic Idealize.SL.Sem

/-- The word-level kernel runs to the end, faults nowhere and leaves its arguments as it found them. -/
theorem frame_kernel : Cert.frame_Kernel := fun m ρ _ => Cert.Kernel.Flux.frame m ρ

/-- So does the idealized kernel. -/
theorem frame_kernelIdeal : Cert.frame_KernelIdeal := fun m ρ _ => Cert.KernelIdeal.Flux.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the node update of the field of limited fluxes: the
    reference's flux stage is the lane function in the host's operations, which over the extended reals is the kernel's,
    and the gathers and the node update are the same operations on both sides. -/
theorem algebraic : Cert.algebraic_KernelIdeal_ReferenceIdeal := by
  intro m ρ m' ρ' _ hagree
  refine ⟨fun c => Cert.KernelIdeal.FluxValue.result (F := Ideal) m c, Cert.KernelIdeal.FluxValue.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [show Cert.ReferenceIdeal.Value.res_main_v53 m' c = Cert.ReferenceIdeal.Value.res_out0 m' c from rfl,
    Cert.ReferenceIdeal.FluxRef.res_eq, Cert.ReferenceIdeal.FluxRef.fluxOps_eq, ← Cert.FluxSpec.field_eq_fieldHost,
    a0, a1, a2, a3, a4, a5, a6, a7]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
